-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S1024x1024 : Shape := ⟨2, ![1024, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S8x4096x1024 .f32) (main_arg1 : FVec F S8x4096x1024 .f32) (main_arg2 : FVec F S1024x1024 .f32) (main_arg3 : FVec F S1024x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S8x4096x1024 : Shape := ⟨3, ![8, 4096, 1024]⟩
abbrev S1024x1024 : Shape := ⟨2, ![1024, 1024]⟩
abbrev S32768x1024 : Shape := ⟨2, ![32768, 1024]⟩
abbrev S512x1024 : Shape := ⟨2, ![512, 1024]⟩

abbrev nBuf : Space → Nat
  | .hbm => 12
  | .vmem => 10
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S32768x1024, .f32⟩
  | .hbm, ⟨5, _⟩ => ⟨S32768x1024, .f32⟩
  | .hbm, ⟨6, _⟩ => ⟨S1024x1024, .bf16⟩
  | .hbm, ⟨7, _⟩ => ⟨S1024x1024, .bf16⟩
  | .hbm, ⟨8, _⟩ => ⟨S32768x1024, .f32⟩
  | .hbm, ⟨9, _⟩ => ⟨S32768x1024, .f32⟩
  | .hbm, ⟨10, _⟩ => ⟨S8x4096x1024, .f32⟩
  | .hbm, ⟨11, _⟩ => ⟨S8x4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1024x1024, .bf16⟩
  | .local _ .vmem, ⟨5, _⟩ => ⟨S1024x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S8x4096x1024_S32768x1024 : S8x4096x1024.ShapeCasts S32768x1024
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S32768x1024_S8x4096x1024 : S32768x1024.ShapeCasts S8x4096x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S32768x1024.size a
  hwx0_1 : ∀ i : grid0.Coords, EltTy.bits .f32 = 32 ∨ (Rect.block (s := S32768x1024) S512x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S32768x1024.size a
  hwx0_4 : ∀ i : grid0.Coords, EltTy.bits .f32 = 32 ∨ (Rect.block (s := S32768x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1024.size a ≤ S32768x1024.size a
  hwx0_5 : ∀ i : grid0.Coords, EltTy.bits .f32 = 32 ∨ (Rect.block (s := S32768x1024) S512x1024.size (cc0_transform_5 i) (hinb0_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4_1) S512x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x4096x1024 : Shape := ⟨3, ![8, 4096, 1024]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S1024x1024, .f32⟩
  | .hbm, ⟨3, _⟩ => ⟨S1024x1024, .f32⟩
  | .hbm, ⟨4, _⟩ => ⟨S8x4096x1024, .f32⟩
  | .hbm, ⟨5, _⟩ => ⟨S8x4096x1024, .f32⟩
  | .hbm, ⟨6, _⟩ => ⟨S8x4096x1024, .f32⟩
  | .hbm, ⟨7, _⟩ => ⟨S8x4096x1024, .f32⟩
  | .hbm, ⟨8, _⟩ => ⟨S8x4096x1024, .f32⟩
  | .hbm, ⟨9, _⟩ => ⟨S8x4096x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  dot_S8x4096x1024_S1024x1024_S8x4096x1024_2_0_01_1_n_n_wf : DotDims.WF S8x4096x1024 S1024x1024 S8x4096x1024 [2] [0] [0, 1] [1] [] []

variable [Facts₀]

def dot_S8x4096x1024_S1024x1024_S8x4096x1024_2_0_01_1_n_n : DotDims S8x4096x1024 S1024x1024 S8x4096x1024 where
  lhsContracting := [2]
  rhsContracting := [0]
  lhsNonContracting := [0, 1]
  rhsNonContracting := [1]
  lhsBatch := []
  rhsBatch := []
  wf := dot_S8x4096x1024_S1024x1024_S8x4096x1024_2_0_01_1_n_n_wf

class Facts : Prop extends Facts₀ where

variable [Facts]
-- ==== Proof.EntryArrays.lean ====
/-
  What the pipelined region finds in its four operand arrays.

  Before the region the program folds batch and position of the signal's two parts into one row axis (a
  row-major re-laying: the entries keep their flat positions) and changes the format of the two transform matrices,
  which at the ideal instance changes no entry. So the region's first two operands are the folded real and
  imaginary parts of the signal, and the other two are the transform matrices themselves.
-/
import proofs.«423385_j19490561590114_3_alg».proof.Proof.Gen.KernelIdeal.Frame
import Idealize.ShloMosaic.Lib.StableHlo.Run
import Idealize.ShloMosaic.Lib.ValueIdx

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The region's first operand is the real part of the signal, folded. -/
theorem folded_re (c : Dev nD) :
    (V m c main_v0 : S32768x1024.Idx → EReal)
      = shapeCast S32768x1024 (m ((c : Thread nD τ).loc main_arg0)) shapeCasts_S8x4096x1024_S32768x1024 := by
  show StableHlo.after hostOps0 (fun b => m (c, b)) (Proc.devRef .tc main_v0) = _
  after_results
  rfl

/-- Its second operand is the imaginary part of the signal, folded. -/
theorem folded_im (c : Dev nD) :
    (V m c main_v1 : S32768x1024.Idx → EReal)
      = shapeCast S32768x1024 (m ((c : Thread nD τ).loc main_arg1)) shapeCasts_S8x4096x1024_S32768x1024 := by
  show StableHlo.after hostOps0 (fun b => m (c, b)) (Proc.devRef .tc main_v1) = _
  after_results
  rfl

/-- Its third operand is the real transform matrix: the change of format keeps every entry. -/
theorem matrix_re (c : Dev nD) :
    (V m c main_v2 : S1024x1024.Idx → EReal) = m ((c : Thread nD τ).loc main_arg2) := by
  show StableHlo.after hostOps0 (fun b => m (c, b)) (Proc.devRef .tc main_v2) = _
  after_results
  rfl

/-- Its fourth operand is the imaginary transform matrix. -/
theorem matrix_im (c : Dev nD) :
    (V m c main_v3 : S1024x1024.Idx → EReal) = m ((c : Thread nD τ).loc main_arg3) := by
  show StableHlo.after hostOps0 (fun b => m (c, b)) (Proc.devRef .tc main_v3) = _
  after_results
  rfl

end Cert.KernelIdeal.Entry

end
-- ==== Proof.IdftSpec.lean ====
/-
  The inverse discrete Fourier transform of a batch of complex signals, written with two real matrices.

  A signal is a pair of real arrays `re`, `im` of shape [8, 4096, 1024] (batch, position, frequency), and the
  transform is given by a pair of real [1024, 1024] matrices `fr`, `fi`, the real and the imaginary part of the
  transform matrix. The product of the complex row `re + i·im` with the complex matrix `fr + i·fi` has

      real part       Σ_k re[b,s,k]·fr[k,n]  −  Σ_k im[b,s,k]·fi[k,n]
      imaginary part  Σ_k re[b,s,k]·fi[k,n]  +  Σ_k im[b,s,k]·fr[k,n]

  at every batch `b`, position `s` and output frequency `n`. Here an entry is an extended real (a float read at the
  ideal instance), and each sum is the exact sum of 1024 exact products.

  The same numbers can be computed after folding batch and position into ONE row axis: entry (b, s, k) of the
  three-axis array is entry (b·4096 + s, k) of the [32768, 1024] array with the same row-major order. A row of the
  product depends only on the same row of the signal, so the folded product, unfolded again, is the three-axis
  product (`real_of_folded`, `imag_of_folded`), and any run of consecutive rows of the folded product is the product
  of that run of rows (`realRows_of_rows`, `imagRows_of_rows`). No law of arithmetic is used beyond reading the
  same terms at the same places: nothing here needs the entries to be finite.
-/
import Idealize.ShloMosaic.Lib.ValueIdx
import Idealize.ShloMosaic.Lib.Pipeline.Value
import Idealize.ShloMosaic.PureOps.Ideal.Laws

noncomputable section

open scoped BigOperators

namespace Cert.Idft

open Idealize.ShloMosaic Idealize.ShloMosaic.ValueIdx

/-- The signal's three axes: batch, position, frequency. -/
abbrev Cube : Shape := ⟨3, ![8, 4096, 1024]⟩
/-- The same entries with batch and position folded into one row axis. -/
abbrev Folded : Shape := ⟨2, ![32768, 1024]⟩
/-- A transform matrix: input frequency by output frequency. -/
abbrev Mat : Shape := ⟨2, ![1024, 1024]⟩
/-- `R` rows of 1024 frequencies. -/
abbrev RowsOf (R : Nat) : Shape := ⟨2, ![R, 1024]⟩

/-! ## Rows against a matrix -/

/-- Row `r` of `x` against column `n` of `f`: the sum over the input frequency `k` of `x[r,k]·f[k,n]`. -/
def rowDot {R : Nat} (x : (RowsOf R).Idx → EReal) (f : Mat.Idx → EReal) (r : Fin R) (n : Fin 1024) : EReal :=
  ∑ k : Fin 1024, x (ix2 r k) * f (ix2 k n)

/-- The real part of the rows `x + i·y` times the matrix `fr + i·fi`. -/
def realRows {R : Nat} (x y : (RowsOf R).Idx → EReal) (fr fi : Mat.Idx → EReal) : (RowsOf R).Idx → EReal :=
  fun i => rowDot x fr (i 0) (i 1) - rowDot y fi (i 0) (i 1)

/-- The imaginary part of the rows `x + i·y` times the matrix `fr + i·fi`. -/
def imagRows {R : Nat} (x y : (RowsOf R).Idx → EReal) (fr fi : Mat.Idx → EReal) : (RowsOf R).Idx → EReal :=
  fun i => rowDot x fi (i 0) (i 1) + rowDot y fr (i 0) (i 1)

/-- A row of the product depends on that row of the signal and on the column of the matrix only: if the rows `x` at
    `p` are the rows `X` at `r`, and the matrices agree on column `n`, the two dot products agree. -/
theorem rowDot_of_rows {R R' : Nat} (X : (RowsOf R).Idx → EReal) (x : (RowsOf R').Idx → EReal) (F f : Mat.Idx → EReal)
    (r : Fin R) (p : Fin R') (n : Fin 1024) (hx : ∀ k, x (ix2 p k) = X (ix2 r k)) (hf : ∀ k, f (ix2 k n) = F (ix2 k n)) :
    rowDot x f p n = rowDot X F r n :=
  Finset.sum_congr rfl fun k _ => by rw [hx k, hf k]

/-- So the real part at `(p, n)` of a run of rows is the real part at `(r, n)` of the whole, when row `p` of the run
    is row `r` of the whole. -/
theorem realRows_of_rows {R R' : Nat} (X Y : (RowsOf R).Idx → EReal) (x y : (RowsOf R').Idx → EReal)
    (Fr Fi fr fi : Mat.Idx → EReal) (r : Fin R) (p : Fin R') (n : Fin 1024)
    (hx : ∀ k, x (ix2 p k) = X (ix2 r k)) (hy : ∀ k, y (ix2 p k) = Y (ix2 r k))
    (hfr : ∀ k, fr (ix2 k n) = Fr (ix2 k n)) (hfi : ∀ k, fi (ix2 k n) = Fi (ix2 k n)) :
    realRows x y fr fi (ix2 p n) = realRows X Y Fr Fi (ix2 r n) := by
  show rowDot x fr p n - rowDot y fi p n = rowDot X Fr r n - rowDot Y Fi r n
  rw [rowDot_of_rows X x Fr fr r p n hx hfr, rowDot_of_rows Y y Fi fi r p n hy hfi]

/-- The same for the imaginary part. -/
theorem imagRows_of_rows {R R' : Nat} (X Y : (RowsOf R).Idx → EReal) (x y : (RowsOf R').Idx → EReal)
    (Fr Fi fr fi : Mat.Idx → EReal) (r : Fin R) (p : Fin R') (n : Fin 1024)
    (hx : ∀ k, x (ix2 p k) = X (ix2 r k)) (hy : ∀ k, y (ix2 p k) = Y (ix2 r k))
    (hfr : ∀ k, fr (ix2 k n) = Fr (ix2 k n)) (hfi : ∀ k, fi (ix2 k n) = Fi (ix2 k n)) :
    imagRows x y fr fi (ix2 p n) = imagRows X Y Fr Fi (ix2 r n) := by
  show rowDot x fi p n + rowDot y fr p n = rowDot X Fi r n + rowDot Y Fr r n
  rw [rowDot_of_rows X x Fi fi r p n hx hfi, rowDot_of_rows Y y Fr fr r p n hy hfr]

/-! ## The three-axis product -/

/-- The real part of the transform, entry by entry over batch, position and output frequency. -/
def cubeReal (re im : Cube.Idx → EReal) (fr fi : Mat.Idx → EReal) : Cube.Idx → EReal :=
  fun i => (∑ k : Fin 1024, re (ix3 (i 0) (i 1) k) * fr (ix2 k (i 2)))
    - ∑ k : Fin 1024, im (ix3 (i 0) (i 1) k) * fi (ix2 k (i 2))

/-- The imaginary part of the transform. -/
def cubeImag (re im : Cube.Idx → EReal) (fr fi : Mat.Idx → EReal) : Cube.Idx → EReal :=
  fun i => (∑ k : Fin 1024, re (ix3 (i 0) (i 1) k) * fi (ix2 k (i 2)))
    + ∑ k : Fin 1024, im (ix3 (i 0) (i 1) k) * fr (ix2 k (i 2))

/-! ## Folding batch and position into one row axis -/

/-- The row of the folded array that holds position `s` of batch `b`. -/
def foldRow (b : Fin 8) (s : Fin 4096) : Fin 32768 := ⟨b.val * 4096 + s.val, by omega⟩

/-- The folded array at `(b·4096 + s, k)` is the three-axis array at `(b, s, k)`: the two have the same row-major
    position `(b·4096 + s)·1024 + k`. -/
theorem fold_apply {α : Type} (x : Cube.Idx → α) (h : Cube.ShapeCasts Folded) (b : Fin 8) (s : Fin 4096) (k : Fin 1024) :
    shapeCast Folded x h (ix2 (foldRow b s) k) = x (ix3 b s k) :=
  shapeCast_apply x h _ _ (by
    rw [Shape.rowMajor_val_three, Shape.rowMajor_val_two]
    show (b.val * 4096 + s.val) * 1024 + k.val = (b.val * 4096 + s.val) * 1024 + k.val
    rfl)

/-- The three-axis array rebuilt from a folded one, at `(b, s, n)`, is the folded array at `(b·4096 + s, n)`. -/
theorem unfold_apply {α : Type} (y : Folded.Idx → α) (h : Folded.ShapeCasts Cube) (b : Fin 8) (s : Fin 4096) (n : Fin 1024) :
    shapeCast Cube y h (ix3 b s n) = y (ix2 (foldRow b s) n) :=
  shapeCast_apply y h _ _ (by
    rw [Shape.rowMajor_val_two, Shape.rowMajor_val_three]
    show (b.val * 4096 + s.val) * 1024 + n.val = (b.val * 4096 + s.val) * 1024 + n.val
    rfl)

/-- Row `b·4096 + s` of the folded signal against a column is the sum over `k` of the three-axis entries
    `(b, s, k)` times the column's. -/
theorem rowDot_fold (x : Cube.Idx → EReal) (h : Cube.ShapeCasts Folded) (f : Mat.Idx → EReal)
    (b : Fin 8) (s : Fin 4096) (n : Fin 1024) :
    rowDot (shapeCast Folded x h) f (foldRow b s) n = ∑ k : Fin 1024, x (ix3 b s k) * f (ix2 k n) :=
  Finset.sum_congr rfl fun k _ => by rw [fold_apply]

/-- THE REAL PART: fold the signal, multiply the folded rows, unfold — the three-axis real part. -/
theorem real_of_folded (re im : Cube.Idx → EReal) (fr fi : Mat.Idx → EReal)
    (h : Cube.ShapeCasts Folded) (h' : Folded.ShapeCasts Cube) :
    shapeCast Cube (realRows (shapeCast Folded re h) (shapeCast Folded im h) fr fi) h' = cubeReal re im fr fi := by
  funext i
  obtain ⟨b, s, n, rfl⟩ : ∃ (b : Fin 8) (s : Fin 4096) (n : Fin 1024), i = ix3 b s n := ⟨i 0, i 1, i 2, eq_ix3 i⟩
  rw [unfold_apply]
  show rowDot (shapeCast Folded re h) fr (foldRow b s) n - rowDot (shapeCast Folded im h) fi (foldRow b s) n
    = (∑ k : Fin 1024, re (ix3 b s k) * fr (ix2 k n)) - ∑ k : Fin 1024, im (ix3 b s k) * fi (ix2 k n)
  rw [rowDot_fold, rowDot_fold]

/-- THE IMAGINARY PART, the same way. -/
theorem imag_of_folded (re im : Cube.Idx → EReal) (fr fi : Mat.Idx → EReal)
    (h : Cube.ShapeCasts Folded) (h' : Folded.ShapeCasts Cube) :
    shapeCast Cube (imagRows (shapeCast Folded re h) (shapeCast Folded im h) fr fi) h' = cubeImag re im fr fi := by
  funext i
  obtain ⟨b, s, n, rfl⟩ : ∃ (b : Fin 8) (s : Fin 4096) (n : Fin 1024), i = ix3 b s n := ⟨i 0, i 1, i 2, eq_ix3 i⟩
  rw [unfold_apply]
  show rowDot (shapeCast Folded re h) fi (foldRow b s) n + rowDot (shapeCast Folded im h) fr (foldRow b s) n
    = (∑ k : Fin 1024, re (ix3 b s k) * fi (ix2 k n)) + ∑ k : Fin 1024, im (ix3 b s k) * fr (ix2 k n)
  rw [rowDot_fold, rowDot_fold]

end Cert.Idft

end
-- ==== Proof.TileProduct.lean ====
/-
  What one grid step of the kernel computes, at the ideal float instance.

  A step loads 512 rows of the folded signal — `x` from the real part, `y` from the imaginary part — and the two whole
  transform matrices `fr`, `fi`, and stores two [512, 1024] tiles. Changing a float's format is the identity at the
  ideal instance, and a matrix product into a zero accumulator, read at row `p` and column `n`, is the exact sum
  Σ_k lhs[p,k]·rhs[k,n] over the one contracted axis. So the first stored tile is the real part of the rows
  `x + i·y` times `fr + i·fi`, and the second the imaginary part (`Cert.Idft.realRows`, `imagRows` at 512 rows).
-/
import proofs.«423385_j19490561590114_3_alg».proof.Proof.Gen.KernelIdeal.Skeleton
import proofs.«423385_j19490561590114_3_alg».proof.Proof.IdftSpec
import Idealize.ShloMosaic.Lib.ValueIdx
import Idealize.ShloMosaic.Lib.Pipeline.Value
import Idealize.ShloMosaic.PureOps.Ideal.Laws

noncomputable section

open scoped BigOperators

namespace Cert.KernelIdeal.Tile

open Cert.KernelIdeal Cert.KernelIdeal.Gen Idealize.ShloMosaic Idealize.ShloMosaic.ValueIdx

/-! ## The product's operand indices, axis by axis

The tile product contracts axis 1 of the left operand with axis 0 of the right one. At output index `i` and
contraction index `q` the left operand is read at `(i 0, q)` and the right one at `(q, i 1)`. -/

theorem lhs_row (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_contr (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_contr (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_col (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-! ## The product into a zero accumulator is the row-by-column sum -/

/-- At the ideal instance the tile product of `x` and `f` into the zero accumulator, at `i`, is row `i 0` of `x`
    against column `i 1` of `f`: the contraction index runs over the 1024 input frequencies. -/
theorem product_apply {φ₁ φ₂ : FTy} (x : FVec Ideal S512x1024 φ₁) (f : FVec Ideal S1024x1024 φ₂) (i : S512x1024.Idx) :
    matmul dot_S512x1024_S1024x1024_S512x1024_1_0_0_1_n_n none x f (constant (F := Ideal) S512x1024 .f32 0x00000000#32) i
      = Cert.Idft.rowDot (R := 512) x f (i 0) (i 1) := by
  simp only [matmul]
  rw [Ideal.matmul_constant_zero_apply, ← Equiv.sum_comp (ValueIdx.contrEquiv1 dot_S512x1024_S1024x1024_S512x1024_1_0_0_1_n_n 1024 rfl rfl).symm]
  refine Finset.sum_congr rfl fun k _ => ?_
  have hk := ValueIdx.contrEquiv1_symm_val dot_S512x1024_S1024x1024_S512x1024_1_0_0_1_n_n 1024 rfl rfl k
  have el : dot_S512x1024_S1024x1024_S512x1024_1_0_0_1_n_n.lhsIdx i ((ValueIdx.contrEquiv1 dot_S512x1024_S1024x1024_S512x1024_1_0_0_1_n_n 1024 rfl rfl).symm k) = ix2 (i 0) k := funext fun a => Fin.ext (by
    match a with
    | ⟨0, _⟩ => exact lhs_row _ _
    | ⟨1, _⟩ => exact (lhs_contr _ _).trans hk)
  have er : dot_S512x1024_S1024x1024_S512x1024_1_0_0_1_n_n.rhsIdx i ((ValueIdx.contrEquiv1 dot_S512x1024_S1024x1024_S512x1024_1_0_0_1_n_n 1024 rfl rfl).symm k) = ix2 k (i 1) := funext fun a => Fin.ext (by
    match a with
    | ⟨0, _⟩ => exact (rhs_contr _ _).trans hk
    | ⟨1, _⟩ => exact rhs_col _ _)
  rw [el, er]
  rfl

/-! ## The two stored tiles -/

/-- The first stored tile: the real part of the loaded rows times the loaded matrices. The casts to the same
    shape and the changes of format read the operand itself. -/
theorem real_tile (x y : Vec Ideal S512x1024 .f32) (fr fi : Vec Ideal S1024x1024 .bf16) :
    k0_pay5 (F := Ideal) x y fr fi = Cert.Idft.realRows (R := 512) x y fr fi := by
  funext i
  show (matmul dot_S512x1024_S1024x1024_S512x1024_1_0_0_1_n_n none
          (truncf .bf16 (shapeCast S512x1024 x shapeCasts_S512x1024_S512x1024) bitsLt_bf16_f32)
          (shapeCast S1024x1024 fr shapeCasts_S1024x1024_S1024x1024) (constant (F := Ideal) S512x1024 .f32 0x00000000#32) i)
      - (matmul dot_S512x1024_S1024x1024_S512x1024_1_0_0_1_n_n none
          (truncf .bf16 (shapeCast S512x1024 y shapeCasts_S512x1024_S512x1024) bitsLt_bf16_f32)
          (shapeCast S1024x1024 fi shapeCasts_S1024x1024_S1024x1024) (constant (F := Ideal) S512x1024 .f32 0x00000000#32) i)
    = Cert.Idft.rowDot (R := 512) x fr (i 0) (i 1) - Cert.Idft.rowDot (R := 512) y fi (i 0) (i 1)
  rw [product_apply, product_apply, shapeCast_self, shapeCast_self, shapeCast_self, shapeCast_self]
  rfl

/-- The second stored tile: the imaginary part. -/
theorem imag_tile (x y : Vec Ideal S512x1024 .f32) (fr fi : Vec Ideal S1024x1024 .bf16) :
    k0_pay6 (F := Ideal) x y fr fi = Cert.Idft.imagRows (R := 512) x y fr fi := by
  funext i
  show (matmul dot_S512x1024_S1024x1024_S512x1024_1_0_0_1_n_n none
          (truncf .bf16 (shapeCast S512x1024 x shapeCasts_S512x1024_S512x1024) bitsLt_bf16_f32)
          (shapeCast S1024x1024 fi shapeCasts_S1024x1024_S1024x1024) (constant (F := Ideal) S512x1024 .f32 0x00000000#32) i)
      + (matmul dot_S512x1024_S1024x1024_S512x1024_1_0_0_1_n_n none
          (truncf .bf16 (shapeCast S512x1024 y shapeCasts_S512x1024_S512x1024) bitsLt_bf16_f32)
          (shapeCast S1024x1024 fr shapeCasts_S1024x1024_S1024x1024) (constant (F := Ideal) S512x1024 .f32 0x00000000#32) i)
    = Cert.Idft.rowDot (R := 512) x fi (i 0) (i 1) + Cert.Idft.rowDot (R := 512) y fr (i 0) (i 1)
  rw [product_apply, product_apply, shapeCast_self, shapeCast_self, shapeCast_self, shapeCast_self]
  rfl

end Cert.KernelIdeal.Tile

end
-- ==== Proof.FoldedProduct.lean ====
/-
  The two output arrays of the pipelined region, after all 64 grid steps.

  Step `t` reads rows `512·t … 512·t + 511` of the two folded signal arrays and the two whole matrices, and writes
  rows `512·t … 512·t + 511` of each output array. What it writes is the real (the imaginary) part of those rows
  times the matrices, and a row of the product depends on the same row of the signal only, so what step `t` writes is
  the block of rows `512·t …` of ONE function of the whole arrays: the real (imaginary) part of ALL the folded rows
  times the matrices. The 64 blocks of 512 rows tile the 32768 rows — row `r` lies in block `r / 512` —, hence after
  the last step each output array is that function everywhere.
-/
import proofs.«423385_j19490561590114_3_alg».proof.Proof.Gen.KernelIdeal.Frame
import proofs.«423385_j19490561590114_3_alg».proof.Proof.TileProduct
import Idealize.ShloMosaic.Lib.Pipeline.Value
import Idealize.ShloMosaic.Lib.ValueIdx

set_option maxRecDepth 16384

noncomputable section

namespace Cert.KernelIdeal.Folded

open Cert.KernelIdeal Cert.KernelIdeal.Gen Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ)

/-! ## The arrays and the blocks, by name -/

/-- The folded real part of the signal, as the region finds it. -/
abbrev xs (c : Dev nD) : S32768x1024.Idx → EReal := V m c main_v0
/-- The folded imaginary part. -/
abbrev ys (c : Dev nD) : S32768x1024.Idx → EReal := V m c main_v1
/-- The real transform matrix. -/
abbrev frs (c : Dev nD) : S1024x1024.Idx → EReal := V m c main_v2
/-- The imaginary transform matrix. -/
abbrev fis (c : Dev nD) : S1024x1024.Idx → EReal := V m c main_v3

/-- The 512 rows of the folded real part that step `t` loads. -/
abbrev xblk (c : Dev nD) (t : Fin cfg0.N) : Vec Ideal S512x1024 .f32 := iblk m c 0 t
/-- The 512 rows of the folded imaginary part that step `t` loads. -/
abbrev yblk (c : Dev nD) (t : Fin cfg0.N) : Vec Ideal S512x1024 .f32 := iblk m c 1 t
/-- The real matrix as step `t` loads it. -/
abbrev frblk (c : Dev nD) (t : Fin cfg0.N) : Vec Ideal S1024x1024 .bf16 := iblk m c 2 t
/-- The imaginary matrix as step `t` loads it. -/
abbrev fiblk (c : Dev nD) (t : Fin cfg0.N) : Vec Ideal S1024x1024 .bf16 := iblk m c 3 t

/-- The whole-block rectangle starts at the origin. -/
theorem origin : (![0, 0] : Fin 2 → Nat) = fun _ => 0 := funext fun a => by fin_cases a <;> rfl

/-! ## Which block each window is on at step `t` -/

/-- The signal windows and the output windows are on block row `t`, block column 0; the matrix windows stay on the one
    block there is. Decided over the 64 steps. -/
theorem block_of_step : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

/-- There are 64 steps. -/
theorem step_lt (t : Fin cfg0.N) : t.val < 64 := Nat.lt_of_lt_of_eq t.isLt N_0

/-- Row `p` of step `t`'s block is row `512·t + p` of the array. -/
def rowOf (t : Fin cfg0.N) (p : Fin 512) : Fin 32768 := ⟨t.val * 512 + p.val, by have := step_lt t; omega⟩

/-! ## The loaded blocks, read in the arrays -/

theorem xblk_apply (c : Dev nD) (t : Fin cfg0.N) (p : Fin 512) (k : Fin 1024) :
    xblk m c t (ix2 p k) = xs m c (ix2 (rowOf t p) k) := by
  obtain ⟨e0, e1, -⟩ := block_of_step t
  show V m c main_v0 (((cfg0.win 0).blk t).view.emb (ix2 p k)) = V m c main_v0 (ix2 (rowOf t p) k)
  refine congrArg _ (funext fun a => Fin.ext ?_)
  match a with
  | ⟨0, _⟩ => show win0_0.index t (0 : Fin 2) * 512 + 1 * p.val = t.val * 512 + p.val; omega
  | ⟨1, _⟩ => show win0_0.index t (1 : Fin 2) * 1024 + 1 * k.val = k.val; omega

theorem yblk_apply (c : Dev nD) (t : Fin cfg0.N) (p : Fin 512) (k : Fin 1024) :
    yblk m c t (ix2 p k) = ys m c (ix2 (rowOf t p) k) := by
  obtain ⟨-, -, e0, e1, -⟩ := block_of_step t
  show V m c main_v1 (((cfg0.win 1).blk t).view.emb (ix2 p k)) = V m c main_v1 (ix2 (rowOf t p) k)
  refine congrArg _ (funext fun a => Fin.ext ?_)
  match a with
  | ⟨0, _⟩ => show win0_1.index t (0 : Fin 2) * 512 + 1 * p.val = t.val * 512 + p.val; omega
  | ⟨1, _⟩ => show win0_1.index t (1 : Fin 2) * 1024 + 1 * k.val = k.val; omega

theorem frblk_apply (c : Dev nD) (t : Fin cfg0.N) (k n : Fin 1024) :
    frblk m c t (ix2 k n) = frs m c (ix2 k n) := by
  obtain ⟨-, -, -, -, e0, e1, -⟩ := block_of_step t
  show V m c main_v2 (((cfg0.win 2).blk t).view.emb (ix2 k n)) = V m c main_v2 (ix2 k n)
  refine congrArg _ (funext fun a => Fin.ext ?_)
  match a with
  | ⟨0, _⟩ => show win0_2.index t (0 : Fin 2) * 1024 + 1 * k.val = k.val; omega
  | ⟨1, _⟩ => show win0_2.index t (1 : Fin 2) * 1024 + 1 * n.val = n.val; omega

theorem fiblk_apply (c : Dev nD) (t : Fin cfg0.N) (k n : Fin 1024) :
    fiblk m c t (ix2 k n) = fis m c (ix2 k n) := by
  obtain ⟨-, -, -, -, -, -, e0, e1, -⟩ := block_of_step t
  show V m c main_v3 (((cfg0.win 3).blk t).view.emb (ix2 k n)) = V m c main_v3 (ix2 k n)
  refine congrArg _ (funext fun a => Fin.ext ?_)
  match a with
  | ⟨0, _⟩ => show win0_3.index t (0 : Fin 2) * 1024 + 1 * k.val = k.val; omega
  | ⟨1, _⟩ => show win0_3.index t (1 : Fin 2) * 1024 + 1 * n.val = n.val; omega

/-! ## The real output: window 4 -/

/-- Entry `(p, n)` of step `t`'s real output block sits at `(512·t + p, n)` of the array. -/
theorem real_place (t : Fin cfg0.N) (p : Fin 512) (n : Fin 1024) :
    ((cfg0.win 4).blk t).view.emb (ix2 p n) = ix2 (rowOf t p) n := by
  obtain ⟨-, -, -, -, -, -, -, -, e0, e1, -⟩ := block_of_step t
  refine funext fun a => Fin.ext ?_
  match a with
  | ⟨0, _⟩ => show win0_4.index t (0 : Fin 2) * 512 + 1 * p.val = t.val * 512 + p.val; omega
  | ⟨1, _⟩ => show win0_4.index t (1 : Fin 2) * 1024 + 1 * n.val = n.val; omega

/-- WHAT STEP `t` WRITES BACK to the real output is block `t` of the real part of all folded rows. -/
theorem flushed_real (c : Dev nD) (t : Fin cfg0.N) :
    (dats m 0 c).flushed 4 t = ((cfg0.win 4).blk t).view.read (Elt Ideal)
      (Cert.Idft.realRows (R := 32768) (xs m c) (ys m c) (frs m c) (fis m c)) := by
  show (cfg0.win 4).cut (grid0.coords t) ((dats m 0 c).after 4 t) = _
  rw [after0_4]
  unfold out0_4
  rw [View.canon_unit_zero origin]
  simp only [View.ld_unit_zero (S := S512x1024) origin, View.ld_unit_zero (S := S1024x1024) origin]
  rw [Tile.real_tile]
  refine funext fun (j : S512x1024.Idx) => ?_
  obtain ⟨p, n, rfl⟩ : ∃ (p : Fin 512) (n : Fin 1024), j = ix2 p n := ⟨j 0, j 1, eq_ix2 j⟩
  show Cert.Idft.realRows (R := 512) (xblk m c t) (yblk m c t) (frblk m c t) (fiblk m c t) (ix2 p n)
    = Cert.Idft.realRows (R := 32768) (xs m c) (ys m c) (frs m c) (fis m c) (((cfg0.win 4).blk t).view.emb (ix2 p n))
  refine (Cert.Idft.realRows_of_rows (xs m c) (ys m c) (xblk m c t) (yblk m c t) (frs m c) (fis m c) (frblk m c t) (fiblk m c t)
    (rowOf t p) p n (xblk_apply m c t p) (yblk_apply m c t p)
    (fun k => frblk_apply m c t k n) (fun k => fiblk_apply m c t k n)).trans ?_
  exact congrArg (Cert.Idft.realRows (R := 32768) (xs m c) (ys m c) (frs m c) (fis m c)) (real_place t p n).symm

/-- An index of the real output array is in step `t`'s block iff each coordinate is in the block's range. -/
theorem mem_real_block (t : Fin cfg0.N) (i : S32768x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v4_0).slice (win0_4.rect t)).set ↔ _
  rw [View.set_slice_whole, Rect.mem_set_unit]
  exact Iff.rfl

/-- Every row is in the block of step `row / 512`, which is written back. -/
theorem real_covered (i : S32768x1024.Idx) :
    ∃ t : Fin cfg0.N, (cfg0.win 4).flush t = true ∧ i ∈ ((cfg0.win 4).blk t).view.set := by
  have hi0 : (i 0).val < 32768 := (i 0).isLt
  have hi1 : (i 1).val < 1024 := (i 1).isLt
  obtain ⟨t, ht⟩ : ∃ t : Fin cfg0.N, t.val = (i 0).val / 512 :=
    ⟨⟨(i 0).val / 512, Nat.lt_of_lt_of_eq (by omega : (i 0).val / 512 < 64) N_0.symm⟩, rfl⟩
  obtain ⟨-, -, -, -, -, -, -, -, e0, e1, -⟩ := block_of_step t
  refine ⟨t, flush0_4 t, ?_⟩
  rw [mem_real_block]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega

/-- THE REAL OUTPUT ARRAY after the last step: the real part of all folded rows times the matrices. -/
theorem final_real (c : Dev nD) :
    (dats m 0 c).arrAt 4 cfg0.N = Cert.Idft.realRows (R := 32768) (xs m c) (ys m c) (frs m c) (fis m c) :=
  (dats m 0 c).arrAt_eq_of_cover 4 _ (fun t _ => flushed_real m c t) real_covered

/-! ## The imaginary output: window 5 -/

/-- Entry `(p, n)` of step `t`'s imaginary output block sits at `(512·t + p, n)` of the array. -/
theorem imag_place (t : Fin cfg0.N) (p : Fin 512) (n : Fin 1024) :
    ((cfg0.win 5).blk t).view.emb (ix2 p n) = ix2 (rowOf t p) n := by
  obtain ⟨-, -, -, -, -, -, -, -, -, -, e0, e1⟩ := block_of_step t
  refine funext fun a => Fin.ext ?_
  match a with
  | ⟨0, _⟩ => show win0_5.index t (0 : Fin 2) * 512 + 1 * p.val = t.val * 512 + p.val; omega
  | ⟨1, _⟩ => show win0_5.index t (1 : Fin 2) * 1024 + 1 * n.val = n.val; omega

/-- WHAT STEP `t` WRITES BACK to the imaginary output is block `t` of the imaginary part of all folded rows. -/
theorem flushed_imag (c : Dev nD) (t : Fin cfg0.N) :
    (dats m 0 c).flushed 5 t = ((cfg0.win 5).blk t).view.read (Elt Ideal)
      (Cert.Idft.imagRows (R := 32768) (xs m c) (ys m c) (frs m c) (fis m c)) := by
  show (cfg0.win 5).cut (grid0.coords t) ((dats m 0 c).after 5 t) = _
  rw [after0_5]
  unfold out0_5
  rw [View.canon_unit_zero origin]
  simp only [View.ld_unit_zero (S := S512x1024) origin, View.ld_unit_zero (S := S1024x1024) origin]
  rw [Tile.imag_tile]
  refine funext fun (j : S512x1024.Idx) => ?_
  obtain ⟨p, n, rfl⟩ : ∃ (p : Fin 512) (n : Fin 1024), j = ix2 p n := ⟨j 0, j 1, eq_ix2 j⟩
  show Cert.Idft.imagRows (R := 512) (xblk m c t) (yblk m c t) (frblk m c t) (fiblk m c t) (ix2 p n)
    = Cert.Idft.imagRows (R := 32768) (xs m c) (ys m c) (frs m c) (fis m c) (((cfg0.win 5).blk t).view.emb (ix2 p n))
  refine (Cert.Idft.imagRows_of_rows (xs m c) (ys m c) (xblk m c t) (yblk m c t) (frs m c) (fis m c) (frblk m c t) (fiblk m c t)
    (rowOf t p) p n (xblk_apply m c t p) (yblk_apply m c t p)
    (fun k => frblk_apply m c t k n) (fun k => fiblk_apply m c t k n)).trans ?_
  exact congrArg (Cert.Idft.imagRows (R := 32768) (xs m c) (ys m c) (frs m c) (fis m c)) (imag_place t p n).symm

/-- An index of the imaginary output array is in step `t`'s block iff each coordinate is in the block's range. -/
theorem mem_imag_block (t : Fin cfg0.N) (i : S32768x1024.Idx) :
    i ∈ ((cfg0.win 5).blk t).view.set ↔ ∀ a : Fin 2, win0_5.index t a * S512x1024.size a ≤ (i a).val ∧ (i a).val < win0_5.index t a * S512x1024.size a + S512x1024.size a := by
  show i ∈ ((View.whole main_v4_1).slice (win0_5.rect t)).set ↔ _
  rw [View.set_slice_whole, Rect.mem_set_unit]
  exact Iff.rfl

/-- Every row is in the block of step `row / 512`, which is written back. -/
theorem imag_covered (i : S32768x1024.Idx) :
    ∃ t : Fin cfg0.N, (cfg0.win 5).flush t = true ∧ i ∈ ((cfg0.win 5).blk t).view.set := by
  have hi0 : (i 0).val < 32768 := (i 0).isLt
  have hi1 : (i 1).val < 1024 := (i 1).isLt
  obtain ⟨t, ht⟩ : ∃ t : Fin cfg0.N, t.val = (i 0).val / 512 :=
    ⟨⟨(i 0).val / 512, Nat.lt_of_lt_of_eq (by omega : (i 0).val / 512 < 64) N_0.symm⟩, rfl⟩
  obtain ⟨-, -, -, -, -, -, -, -, -, -, e0, e1⟩ := block_of_step t
  refine ⟨t, flush0_5 t, ?_⟩
  rw [mem_imag_block]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1024 ≤ (i 1).val ∧ (i 1).val < win0_5.index t (1 : Fin 2) * 1024 + 1024; omega

/-- THE IMAGINARY OUTPUT ARRAY after the last step: the imaginary part of all folded rows times the matrices. -/
theorem final_imag (c : Dev nD) :
    (dats m 0 c).arrAt 5 cfg0.N = Cert.Idft.imagRows (R := 32768) (xs m c) (ys m c) (frs m c) (fis m c) :=
  (dats m 0 c).arrAt_eq_of_cover 5 _ (fun t _ => flushed_imag m c t) imag_covered

end Cert.KernelIdeal.Folded

end
-- ==== Proof.KernelValue.lean ====
/-
  What the kernel program computes, entry by entry.

  After the region the program unfolds each [32768, 1024] output array back to three axes. The region leaves in the
  first output array the real part of the folded rows times the matrices, and the folded rows are the three-axis signal
  re-laid, so the first result is the three-axis real part of the transform of the launch arrays; the second
  result is the imaginary part in the same way (`Cert.Idft.real_of_folded`, `imag_of_folded`). The argument arrays are
  written by nothing.
-/
import proofs.«423385_j19490561590114_3_alg».proof.Proof.Gen.KernelIdeal.Frame
import proofs.«423385_j19490561590114_3_alg».proof.Proof.EntryArrays
import proofs.«423385_j19490561590114_3_alg».proof.Proof.FoldedProduct
import Idealize.ShloMosaic.Lib.StableHlo.Run
import Idealize.ShloMosaic.Lib.Pipeline.Value

noncomputable section

namespace Cert.KernelIdeal.Result

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-! ## The lines after the region -/

/-- The first result is the real output array of the region, unfolded to three axes. -/
theorem tail_real (c : Dev nD) :
    (Pipeline.afterTail₀ cfgs (dats m) 0 (V0 m) [hostOps1] c main_v5 : S8x4096x1024.Idx → EReal)
      = shapeCast S8x4096x1024 ((dats m 0 c).arrAt 4 cfg0.N) shapeCasts_S32768x1024_S8x4096x1024 := by
  unfold Pipeline.afterTail₀
  show StableHlo.after hostOps1 _ (Proc.devRef .tc main_v5) = _
  after_results
  rw [Pipeline.withArrays_arr spec0 launch0.win.arr_inj c _ _ 4]
  rfl

/-- The second result is the imaginary output array of the region, unfolded to three axes. -/
theorem tail_imag (c : Dev nD) :
    (Pipeline.afterTail₀ cfgs (dats m) 0 (V0 m) [hostOps1] c main_v6 : S8x4096x1024.Idx → EReal)
      = shapeCast S8x4096x1024 ((dats m 0 c).arrAt 5 cfg0.N) shapeCasts_S32768x1024_S8x4096x1024 := by
  unfold Pipeline.afterTail₀
  show StableHlo.after hostOps1 _ (Proc.devRef .tc main_v6) = _
  after_results
  rw [Pipeline.withArrays_arr spec0 launch0.win.arr_inj c _ _ 5]
  rfl

/-! ## The results as functions of the launch arrays -/

/-- The first result is the three-axis real part of the transform of the launch arrays. -/
theorem result_real (c : Dev nD) :
    (Pipeline.afterTail₀ cfgs (dats m) 0 (V0 m) [hostOps1] c main_v5 : S8x4096x1024.Idx → EReal)
      = Cert.Idft.cubeReal (m ((c.tc : Thread nD τ).loc main_arg0)) (m ((c.tc : Thread nD τ).loc main_arg1))
          (m ((c.tc : Thread nD τ).loc main_arg2)) (m ((c.tc : Thread nD τ).loc main_arg3)) := by
  rw [tail_real, Folded.final_real]
  show shapeCast S8x4096x1024 (Cert.Idft.realRows (R := 32768) (V m c main_v0) (V m c main_v1) (V m c main_v2) (V m c main_v3)) _ = _
  rw [Entry.folded_re, Entry.folded_im, Entry.matrix_re, Entry.matrix_im]
  exact Cert.Idft.real_of_folded _ _ _ _ _ _

/-- The second result is the three-axis imaginary part. -/
theorem result_imag (c : Dev nD) :
    (Pipeline.afterTail₀ cfgs (dats m) 0 (V0 m) [hostOps1] c main_v6 : S8x4096x1024.Idx → EReal)
      = Cert.Idft.cubeImag (m ((c.tc : Thread nD τ).loc main_arg0)) (m ((c.tc : Thread nD τ).loc main_arg1))
          (m ((c.tc : Thread nD τ).loc main_arg2)) (m ((c.tc : Thread nD τ).loc main_arg3)) := by
  rw [tail_imag, Folded.final_imag]
  show shapeCast S8x4096x1024 (Cert.Idft.imagRows (R := 32768) (V m c main_v0) (V m c main_v1) (V m c main_v2) (V m c main_v3)) _ = _
  rw [Entry.folded_re, Entry.folded_im, Entry.matrix_re, Entry.matrix_im]
  exact Cert.Idft.imag_of_folded _ _ _ _ _ _

/-! ## The run -/

/-- Every weakly fair execution of the kernel program terminates with its two results at the three-axis real and
    imaginary parts of the transform of the launch arrays, and the argument arrays unchanged. -/
theorem run (ρ : Dev nD → PrngReg) :
    θ_run defs (onTc (τ := τ) (main (F := Ideal))) ⟨m, fun _ => 0, ρ⟩ (fun r => ∀ c : Dev nD,
      r.2.mem ((c.tc : Thread nD τ).loc main_v5)
        = Cert.Idft.cubeReal (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v6)
        = Cert.Idft.cubeImag (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v5 (Pipeline.mem_restRefs_of main_v5 (by decide) (by decide))).trans (result_real m c),
      ((h c).2 main_v6 (Pipeline.mem_restRefs_of main_v6 (by decide) (by decide))).trans (result_imag m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Result

end
-- ==== Proof.ReferenceValue.lean ====
/-
  What the reference computes, entry by entry.

  The reference contracts the frequency axis of the three-axis signal with the rows of a transform matrix, four
  times, and combines the four products: at batch `b`, position `s` and output frequency `n` its first result is
  Σ_k re[b,s,k]·fr[k,n] − Σ_k im[b,s,k]·fi[k,n] and its second Σ_k re[b,s,k]·fi[k,n] + Σ_k im[b,s,k]·fr[k,n]:
  the three-axis real and imaginary parts of `Cert.Idft`. The generated readings give each product as the sum
  over `k` of the left operand at `(i 0, i 1, k)` times the right one at `(k, i 2)`; what is left is to name those
  two places by coordinates.
-/
import proofs.«423385_j19490561590114_3_alg».proof.Proof.Gen.ReferenceIdeal.Read
import proofs.«423385_j19490561590114_3_alg».proof.Proof.IdftSpec
import Idealize.ShloMosaic.Lib.ValueIdx

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The operands' places, by coordinates -/

theorem left0 (i : S8x4096x1024.Idx) (k : Fin 1024) : lidx_main_v0 i k = ix3 (i 0) (i 1) k :=
  funext fun a => Fin.ext (by match a with | ⟨0, _⟩ => rfl | ⟨1, _⟩ => rfl | ⟨2, _⟩ => rfl)
theorem right0 (i : S8x4096x1024.Idx) (k : Fin 1024) : ridx_main_v0 i k = ix2 k (i 2) :=
  funext fun a => Fin.ext (by match a with | ⟨0, _⟩ => rfl | ⟨1, _⟩ => rfl)
theorem left1 (i : S8x4096x1024.Idx) (k : Fin 1024) : lidx_main_v1 i k = ix3 (i 0) (i 1) k :=
  funext fun a => Fin.ext (by match a with | ⟨0, _⟩ => rfl | ⟨1, _⟩ => rfl | ⟨2, _⟩ => rfl)
theorem right1 (i : S8x4096x1024.Idx) (k : Fin 1024) : ridx_main_v1 i k = ix2 k (i 2) :=
  funext fun a => Fin.ext (by match a with | ⟨0, _⟩ => rfl | ⟨1, _⟩ => rfl)
theorem left2 (i : S8x4096x1024.Idx) (k : Fin 1024) : lidx_main_v2 i k = ix3 (i 0) (i 1) k :=
  funext fun a => Fin.ext (by match a with | ⟨0, _⟩ => rfl | ⟨1, _⟩ => rfl | ⟨2, _⟩ => rfl)
theorem right2 (i : S8x4096x1024.Idx) (k : Fin 1024) : ridx_main_v2 i k = ix2 k (i 2) :=
  funext fun a => Fin.ext (by match a with | ⟨0, _⟩ => rfl | ⟨1, _⟩ => rfl)
theorem left3 (i : S8x4096x1024.Idx) (k : Fin 1024) : lidx_main_v3 i k = ix3 (i 0) (i 1) k :=
  funext fun a => Fin.ext (by match a with | ⟨0, _⟩ => rfl | ⟨1, _⟩ => rfl | ⟨2, _⟩ => rfl)
theorem right3 (i : S8x4096x1024.Idx) (k : Fin 1024) : ridx_main_v3 i k = ix2 k (i 2) :=
  funext fun a => Fin.ext (by match a with | ⟨0, _⟩ => rfl | ⟨1, _⟩ => rfl)

/-! ## The two results -/

/-- The reference's first result is the three-axis real part. -/
theorem real_eq (re im : (⟨S8x4096x1024, .f32⟩ : BufTy).Contents (Elt Ideal)) (fr fi : (⟨S1024x1024, .f32⟩ : BufTy).Contents (Elt Ideal)) :
    val_main_v4 (F := Ideal) re im fr fi = Cert.Idft.cubeReal re im fr fi := by
  funext i
  rw [val_main_v4_apply, val_main_v0_apply, val_main_v1_apply]
  simp only [left0, right0, left1, right1]
  rfl

/-- The reference's second result is the three-axis imaginary part. -/
theorem imag_eq (re im : (⟨S8x4096x1024, .f32⟩ : BufTy).Contents (Elt Ideal)) (fr fi : (⟨S1024x1024, .f32⟩ : BufTy).Contents (Elt Ideal)) :
    val_main_v5 (F := Ideal) re im fr fi = Cert.Idft.cubeImag re im fr fi := by
  funext i
  rw [val_main_v5_apply, val_main_v2_apply, val_main_v3_apply]
  simp only [left2, right2, left3, right3]
  rfl

end Cert.ReferenceIdeal.RefValue

end
-- ==== Proof.lean ====
/- The kernel and the reference compute the same inverse discrete Fourier transform.

   Both programs take a complex signal as two real arrays `re`, `im` of shape [8, 4096, 1024] and the transform
   matrix as two real [1024, 1024] arrays `fr`, `fi`, and return the real and the imaginary part of the product:

       y_real[b,s,n] = Σ_k re[b,s,k]·fr[k,n] − Σ_k im[b,s,k]·fi[k,n]
       y_imag[b,s,n] = Σ_k re[b,s,k]·fi[k,n] + Σ_k im[b,s,k]·fr[k,n]

   The reference contracts the three-axis arrays directly (Proof/ReferenceValue.lean). The kernel folds batch and
   position into one axis of 32768 rows, multiplies 512 rows at a time — four products into zero accumulators, one
   difference and one sum per step, the operands' changes of float format being the identity at the ideal instance
   (Proof/TileProduct.lean) —, so that after the 64 steps its two output arrays hold the real and the imaginary part
   of ALL folded rows times the matrices (Proof/FoldedProduct.lean), and unfolds the two arrays to three axes again
   (Proof/EntryArrays.lean, Proof/KernelValue.lean). Folding and unfolding keep every entry's row-major position and a
   row of the product depends on the same row of the signal only, so the two roads give the same sums of the same
   products (Proof/IdftSpec.lean): no law of arithmetic beyond that is used, and the entries' finiteness is not needed.

   The kernel programs' frames are the generated ones; the reference's frame is its run with the results dropped;
   the idealization rewrote no operation, so there is nothing to preserve. -/
import proofs.«423385_j19490561590114_3_alg».proof.Defs
import proofs.«423385_j19490561590114_3_alg».proof.Proof.Gen.Kernel
import proofs.«423385_j19490561590114_3_alg».proof.Proof.Gen.Kernel.Skeleton
import proofs.«423385_j19490561590114_3_alg».proof.Proof.Gen.Kernel.Launch
import proofs.«423385_j19490561590114_3_alg».proof.Proof.Gen.Kernel.Points
import proofs.«423385_j19490561590114_3_alg».proof.Proof.Gen.Kernel.Frame
import proofs.«423385_j19490561590114_3_alg».proof.Proof.Gen.KernelIdeal
import proofs.«423385_j19490561590114_3_alg».proof.Proof.Gen.KernelIdeal.Skeleton
import proofs.«423385_j19490561590114_3_alg».proof.Proof.Gen.KernelIdeal.Launch
import proofs.«423385_j19490561590114_3_alg».proof.Proof.Gen.KernelIdeal.Points
import proofs.«423385_j19490561590114_3_alg».proof.Proof.Gen.KernelIdeal.Frame
import proofs.«423385_j19490561590114_3_alg».proof.Proof.Gen.ReferenceIdeal
import proofs.«423385_j19490561590114_3_alg».proof.Proof.Gen.Pre_finite_inputs
import proofs.«423385_j19490561590114_3_alg».proof.Proof.Gen.ReferenceIdeal.Run
import proofs.«423385_j19490561590114_3_alg».proof.Proof.Gen.ReferenceIdeal.Read
import proofs.«423385_j19490561590114_3_alg».proof.Proof.KernelValue
import proofs.«423385_j19490561590114_3_alg».proof.Proof.ReferenceValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernel_ideal : Cert.frame_KernelIdeal := fun m ρ _ => Cert.KernelIdeal.Gen.frame m ρ

/-- The reference runs and keeps its arguments: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- Both programs end with the three-axis real part and the three-axis imaginary part of the transform of the
    arrays they were launched with, and these agree. -/
theorem algebraic : Cert.algebraic_KernelIdeal_ReferenceIdeal := by
  intro m ρ m' ρ' _ hagree
  refine ⟨_, _, Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v4_eq, Cert.ReferenceIdeal.RefValue.real_eq,
      (hagree c).1, (hagree c).2.1, (hagree c).2.2.1, (hagree c).2.2.2]
  · rw [Cert.ReferenceIdeal.Read.val_main_v5_eq, Cert.ReferenceIdeal.RefValue.imag_eq,
      (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, trivial, algebraic⟩

end Cert.Proof

end
